-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000x128 .f32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S6400x128 : Shape := ⟨2, ![6400, 128]⟩
abbrev S1000x128 : Shape := ⟨2, ![1000, 128]⟩
abbrev S1x128 : Shape := ⟨2, ![1, 128]⟩

abbrev nBuf : Space → Nat
  | .hbm => 26
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S6400x128, .f32⟩
  | .local _ .vmem, ⟨5, _⟩ => ⟨S6400x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S1000x128, .f32⟩
  | .local _ .vmem, ⟨15, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bcast_S_S100000x128 : S_.BroadcastsInDim S100000x128 (![] : Fin 0 → Fin S100000x128.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .f32 = 32 ∨ (Rect.block (s := S1600000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S1600000x128.size a
  hwx0_1 : ∀ i : grid0.Coords, EltTy.bits .f32 = 32 ∨ (Rect.block (s := S1600000x128) S6400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S1600000x128.size a
  hwx0_2 : ∀ i : grid0.Coords, EltTy.bits .f32 = 32 ∨ (Rect.block (s := S1600000x128) S6400x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S100000x128.size a
  hwx1_1 : ∀ i : grid1.Coords, EltTy.bits .f32 = 32 ∨ (Rect.block (s := S100000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S100000x128.size a
  hwx1_6 : ∀ i : grid1.Coords, EltTy.bits .f32 = 32 ∨ (Rect.block (s := S100000x128) S1000x128.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v10) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S6400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_cst : Ref sig .tc := ⟨.hbm, 33, rfl⟩
abbrev main_call1_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RowMlp.lean ====
/-
  One node's update, as a function of that node's own rows.

  The update network reads a node only through its feature row `xr` and its aggregated-message row `ar`
  (each of 128 entries): with `h = xr + ar`,
    layer1 k = max (∑ l, h l · w1 l k + b1 k) 0        (first linear layer, then the rectifier)
    out j    = ∑ k, layer1 k · w2 k j + b2 j             (second linear layer)
  on the extended reals. A tile of consecutive nodes and the whole node array are both this function applied row
  by row, which is why a tiling of the nodes does not change the result.
-/
import Idealize.ShloMosaic.PureOps.Ideal.Laws
import Idealize.ShloMosaic.Lib.ValueIdx

noncomputable section

namespace Cert.RowMlp

open scoped BigOperators
open Idealize.ShloMosaic Idealize.ShloMosaic.ValueIdx

/-- The hidden activation `k` of a node whose summed input row is `h`: `max (h · w1[:,k] + b1 k) 0`. -/
def layer1 (h : Fin 128 → EReal) (w1 : Fin 128 → Fin 128 → EReal) (b1 : Fin 128 → EReal) (k : Fin 128) : EReal :=
  max (∑ l : Fin 128, h l * w1 l k + b1 k) 0

/-- Output feature `j` of a node with feature row `xr` and aggregated-message row `ar`. -/
def mlpRow (xr ar : Fin 128 → EReal) (w1 : Fin 128 → Fin 128 → EReal) (b1 : Fin 128 → EReal)
    (w2 : Fin 128 → Fin 128 → EReal) (b2 : Fin 128 → EReal) (j : Fin 128) : EReal :=
  ∑ k : Fin 128, layer1 (fun l => xr l + ar l) w1 b1 k * w2 k j + b2 j

/-- The edge messages as one array: entrywise `max (a + b) 0` of the gathered source rows `a` and the edge
    attributes `b`, over all 1,600,000 edges. -/
def msgOf (a b : (⟨2, ![1600000, 128]⟩ : Shape).Idx → EReal) : (⟨2, ![1600000, 128]⟩ : Shape).Idx → EReal :=
  fun i => max (a i + b i) 0

/-- The updated node array: entry (r, j) is `mlpRow` of row r of the features `x` and row r of the aggregate `agg`. -/
def updOf (x agg : (⟨2, ![100000, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) : (⟨2, ![100000, 128]⟩ : Shape).Idx → EReal :=
  fun i => mlpRow (fun l => x (ix2 (i 0) l)) (fun l => agg (ix2 (i 0) l)) (fun l k => w1 (ix2 l k)) (fun k => b1 (ix1 k))
    (fun k j => w2 (ix2 k j)) (fun j => b2 (ix1 j)) (i 1)

end Cert.RowMlp

end
-- ==== Proof.RefRows.lean ====
/-
  The reference, row by row.

  After the gather, the message and the scatter-add (kept here as ONE array `agg`, whose contents this file never
  opens), the reference is two dense layers applied to `x + agg`. Reading its last stage at the entry (r, j):
    out (r, j) = ∑ k, max (∑ l, (x (r, l) + agg (r, l)) · w1 (l, k) + b1 k) 0 · w2 (k, j) + b2 j,
  which mentions the node arrays only through row r: it is `RowMlp.mlpRow` of row r of `x` and row r of `agg`.
-/
import proofs.«118374_j74500502716622_1_alg».proof.Proof.Gen.ReferenceIdeal.Run
import proofs.«118374_j74500502716622_1_alg».proof.Proof.Gen.ReferenceIdeal.Read
import proofs.«118374_j74500502716622_1_alg».proof.Proof.RowMlp
import Idealize.ShloMosaic.Lib.ValueIdx
import Idealize.ShloMosaic.PureOps.Ideal.Laws

noncomputable section

namespace Cert.ReferenceIdeal.Rows

open Cert.ReferenceIdeal Cert.ReferenceIdeal.Gen Cert.ReferenceIdeal.Read
open Idealize.ShloMosaic Idealize.ShloMosaic.ValueIdx Cert.RowMlp

/-! ## The index maps of the two contractions and of the two bias broadcasts, at an entry (r, j) -/

theorem lidx17 (r : Fin 100000) (j k : Fin 128) : lidx_main_v17 (ix2 r j) k = ix2 r k :=
  funext fun a => Fin.ext (by match a with | ⟨0, _⟩ => rfl | ⟨1, _⟩ => rfl)
theorem ridx17 (r : Fin 100000) (j k : Fin 128) : ridx_main_v17 (ix2 r j) k = ix2 k j :=
  funext fun a => Fin.ext (by match a with | ⟨0, _⟩ => rfl | ⟨1, _⟩ => rfl)
theorem lidx22 (r : Fin 100000) (j k : Fin 128) : lidx_main_v22 (ix2 r j) k = ix2 r k :=
  funext fun a => Fin.ext (by match a with | ⟨0, _⟩ => rfl | ⟨1, _⟩ => rfl)
theorem ridx22 (r : Fin 100000) (j k : Fin 128) : ridx_main_v22 (ix2 r j) k = ix2 k j :=
  funext fun a => Fin.ext (by match a with | ⟨0, _⟩ => rfl | ⟨1, _⟩ => rfl)
theorem bias1_idx (r : Fin 100000) (j : Fin 128) : idx_main_v18 (idx_main_v19 (ix2 r j)) = ix1 j :=
  funext fun a => Fin.ext (by match a with | ⟨0, _⟩ => rfl)
theorem bias2_idx (r : Fin 100000) (j : Fin 128) : idx_main_v23 (idx_main_v24 (ix2 r j)) = ix1 j :=
  funext fun a => Fin.ext (by match a with | ⟨0, _⟩ => rfl)

/-! ## The hidden layer and the output, at an entry -/

/-- The rectified first layer at (r, k) is the hidden activation k of row r of `x` and row r of the aggregate. -/
theorem layer1_apply (x0 : FVec Ideal S100000x128 .f32) (x1 : IVec S2x1600000 32) (x2 : FVec Ideal S1600000x128 .f32)
    (x3 : FVec Ideal S128x128 .f32) (x4 : FVec Ideal S128 .f32) (r : Fin 100000) (k : Fin 128) :
    val_main_v21 (F := Ideal) x0 x1 x2 x3 x4 (ix2 r k)
      = layer1 (fun l => x0 (ix2 r l) + val_main_v15 (F := Ideal) x0 x1 x2 (ix2 r l)) (fun l k => x3 (ix2 l k))
          (fun k => x4 (ix1 k)) k := by
  rw [val_main_v21_apply, val_main_v20_apply, val_main_v17_apply, val_main_v19_apply, val_main_v18_apply,
    val_main_call1_v0_apply, val_main_call1_cst_apply, bias1_idx]
  unfold layer1
  simp only [lidx17, ridx17, val_main_v16_apply, Ideal.addf_def, Ideal.maximumf_def, Ideal.ofBits_def,
    Ideal.ofBits_zero_f32]

/-- The reference's result at (r, j) is `mlpRow` of row r of `x` and row r of the aggregate. -/
theorem out_apply (x0 : FVec Ideal S100000x128 .f32) (x1 : IVec S2x1600000 32) (x2 : FVec Ideal S1600000x128 .f32)
    (x3 : FVec Ideal S128x128 .f32) (x4 : FVec Ideal S128 .f32) (x5 : FVec Ideal S128x128 .f32)
    (x6 : FVec Ideal S128 .f32) (r : Fin 100000) (j : Fin 128) :
    val_main_v25 (F := Ideal) x0 x1 x2 x3 x4 x5 x6 (ix2 r j)
      = mlpRow (fun l => x0 (ix2 r l)) (fun l => val_main_v15 (F := Ideal) x0 x1 x2 (ix2 r l))
          (fun l k => x3 (ix2 l k)) (fun k => x4 (ix1 k)) (fun k j => x5 (ix2 k j)) (fun j => x6 (ix1 j)) j := by
  rw [val_main_v25_apply, val_main_v22_apply, val_main_v24_apply, val_main_v23_apply, bias2_idx]
  unfold mlpRow
  simp only [lidx22, ridx22, layer1_apply, Ideal.addf_def]

/-! ## The same, as whole arrays -/

/-- The reference's message stage is the entrywise rectified sum of its gather stage and the edge attributes. -/
theorem msg_eq (x0 : FVec Ideal S100000x128 .f32) (x1 : IVec S2x1600000 32) (x2 : FVec Ideal S1600000x128 .f32) :
    val_main_v12 (F := Ideal) x0 x1 x2 = msgOf (val_main_v10 (F := Ideal) x0 x1) x2 := by
  funext i
  rw [val_main_v12_apply, val_main_v11_apply, val_main_call0_v0_apply, val_main_call0_cst_apply]
  unfold msgOf
  simp only [Ideal.addf_def, Ideal.maximumf_def, Ideal.ofBits_def, Ideal.ofBits_zero_f32]

/-- The reference's result is the updated node array of `x` and its own aggregate stage. -/
theorem out_eq (x0 : FVec Ideal S100000x128 .f32) (x1 : IVec S2x1600000 32) (x2 : FVec Ideal S1600000x128 .f32)
    (x3 : FVec Ideal S128x128 .f32) (x4 : FVec Ideal S128 .f32) (x5 : FVec Ideal S128x128 .f32)
    (x6 : FVec Ideal S128 .f32) :
    val_main_v25 (F := Ideal) x0 x1 x2 x3 x4 x5 x6 = updOf x0 (val_main_v15 (F := Ideal) x0 x1 x2) x3 x4 x5 x6 := by
  funext i
  rw [eq_ix2 i]
  exact out_apply x0 x1 x2 x3 x4 x5 x6 (i 0) (i 1)

end Cert.ReferenceIdeal.Rows

end
-- ==== Proof.MessageRegion.lean ====
/-
  The message region, as one array.

  Region 0 walks the 1,600,000 edges in 250 tiles of 6,400 rows. Tile t of each operand is rows 6400·t … 6400·t + 6399
  of its array, all three windows moving together, and the body writes `max (xg + ea, 0)` entry by entry. So what
  point t writes back is tile t of the whole-array function `msgOf xg ea`; the 250 tiles cover the array (row r lies
  in tile r / 6400), hence after the region the output array IS `msgOf xg ea`, whatever the arrays `xg` and `ea` hold
  when the region is entered.
-/
import proofs.«118374_j74500502716622_1_alg».proof.Proof.Gen.KernelIdeal.Frame
import proofs.«118374_j74500502716622_1_alg».proof.Proof.RowMlp
import Idealize.ShloMosaic.Lib.Pipeline.Value
import Idealize.ShloMosaic.Lib.ValueIdx
import Idealize.ShloMosaic.PureOps.Ideal.Laws

set_option maxRecDepth 16384

noncomputable section

namespace Cert.KernelIdeal.Message

open Cert.KernelIdeal Cert.KernelIdeal.Gen Cert.RowMlp
open Idealize.ShloMosaic Idealize.ShloMosaic.TcCoe Idealize.ShloMosaic.ValueIdx Idealize.SL.Sem
open Idealize.ShloMosaic.Pipeline (Dat)

-- the buffer contents when the region is entered
variable (V : (c : Dev nD) → (b : Ref sig .tc) → Buf (Elt Ideal) ((c : Thread nD τ).loc b))

/-- The gathered source rows and the edge attributes, as region 0 finds them. -/
abbrev xg (c : Dev nD) : FVec Ideal S1600000x128 .f32 := V c main_v10
abbrev ea (c : Dev nD) : FVec Ideal S1600000x128 .f32 := V c main_arg2

theorem hz : (![0, 0] : Fin 2 → Nat) = fun _ => 0 := funext fun a => by fin_cases a <;> rfl

/-- The body's one stored value, entry by entry: the rectified sum of the two loaded tiles. -/
theorem payload_eq (x0 x1 : Vec Ideal S6400x128 .f32) :
    k0_pay1 (F := Ideal) x0 x1 = fun j => max (x0 j + x1 j) 0 := by
  unfold k0_pay1
  dsimp only
  rw [shapeCast_self]
  funext j
  show max (x0 j + x1 j) (Ideal.ofBits .f32 0x00000000#32) = _
  rw [Ideal.ofBits_zero_f32]

/-- The three windows' block indices at point t: block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is tile t of `msgOf xg ea`. -/
theorem flushed_eq (c : Dev nD) (t : Fin cfg0.N) :
    (dat0 V c).flushed 2 t = ((cfg0.win 2).blk t).view.read (Elt Ideal) (msgOf (xg V c) (ea V c)) := by
  show (cfg0.win 2).cut (grid0.coords t) ((dat0 V c).after 2 t) = _
  rw [after0_2]
  unfold out0_2
  rw [View.canon_unit_zero hz]
  simp only [View.ld_unit_zero (S := S6400x128) hz]
  rw [payload_eq]
  obtain ⟨e0, e1, e2, e3, e4, e5⟩ := idx_facts t
  funext j
  show max (xg V c (((cfg0.win 0).blk t).view.emb j) + ea V c (((cfg0.win 1).blk t).view.emb j)) 0
    = max (xg V c (((cfg0.win 2).blk t).view.emb j) + ea V c (((cfg0.win 2).blk t).view.emb j)) 0
  have h0 : ((cfg0.win 0).blk t).view.emb j = ((cfg0.win 2).blk t).view.emb j := by
    funext a; apply Fin.ext
    match a with
    | ⟨0, _⟩ => show win0_0.index t (0 : Fin 2) * 6400 + 1 * (j 0).val = win0_2.index t (0 : Fin 2) * 6400 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 6400 + 1 * (j 0).val = win0_2.index t (0 : Fin 2) * 6400 + 1 * (j 0).val; omega
    | ⟨1, _⟩ => show win0_1.index t (1 : Fin 2) * 128 + 1 * (j 1).val = win0_2.index t (1 : Fin 2) * 128 + 1 * (j 1).val; omega
  rw [h0, h1]

/-- An index of the array is in point t's tile iff each coordinate is in the tile's range on its axis. -/
theorem mem_blk (t : Fin cfg0.N) (i : S1600000x128.Idx) :
    i ∈ ((cfg0.win 2).blk t).view.set ↔ ∀ a : Fin 2, win0_2.index t a * S6400x128.size a ≤ (i a).val
      ∧ (i a).val < win0_2.index t a * S6400x128.size a + S6400x128.size a := by
  show i ∈ ((View.whole main_v11).slice (win0_2.rect t)).set ↔ _
  rw [View.set_slice_whole, Rect.mem_set_unit]
  exact Iff.rfl

/-- Every edge row lies in some point's tile: row r in tile r / 6400. -/
theorem cover (i : S1600000x128.Idx) :
    ∃ t : Fin cfg0.N, (cfg0.win 2).flush t = true ∧ i ∈ ((cfg0.win 2).blk t).view.set := by
  have hi0 : (i 0).val < 1600000 := (i 0).isLt
  have hi1 : (i 1).val < 128 := (i 1).isLt
  have hN : (i 0).val / 6400 < cfg0.N := by rw [show cfg0.N = 250 from N_0]; omega
  refine ⟨⟨(i 0).val / 6400, hN⟩, flush0_2 _, ?_⟩
  rw [mem_blk]
  obtain ⟨-, -, -, -, e4, e5⟩ := idx_facts ⟨(i 0).val / 6400, hN⟩
  intro a
  match a with
  | ⟨0, _⟩ =>
    show win0_2.index ⟨(i 0).val / 6400, hN⟩ (0 : Fin 2) * 6400 ≤ (i 0).val
      ∧ (i 0).val < win0_2.index ⟨(i 0).val / 6400, hN⟩ (0 : Fin 2) * 6400 + 6400
    rw [e4]; show (i 0).val / 6400 * 6400 ≤ (i 0).val ∧ (i 0).val < (i 0).val / 6400 * 6400 + 6400; omega
  | ⟨1, _⟩ =>
    show win0_2.index ⟨(i 0).val / 6400, hN⟩ (1 : Fin 2) * 128 ≤ (i 1).val
      ∧ (i 1).val < win0_2.index ⟨(i 0).val / 6400, hN⟩ (1 : Fin 2) * 128 + 128
    rw [e5]; omega

/-- After region 0 its output array is the message array of the entry contents. -/
theorem msg_array (c : Dev nD) : (dat0 V c).arrAt 2 cfg0.N = msgOf (xg V c) (ea V c) :=
  (dat0 V c).arrAt_eq_of_cover 2 (msgOf (xg V c) (ea V c)) (fun t _ => flushed_eq V c t) cover

end Cert.KernelIdeal.Message

end
-- ==== Proof.MatmulTile.lean ====
/-
  A tile's matrix product, at an entry.

  The update body multiplies a 1000 × 128 tile by a 128 × 128 matrix — the tile's column axis contracted with the
  matrix's row axis, into a zero accumulator. On the extended reals nothing is rounded and no order of accumulation is
  left: entry (p, q) of the product is `∑ k, l (p, k) · r (k, q)`, for operands of any float format.
-/
import proofs.«118374_j74500502716622_1_alg».proof.Proof.Gen.KernelIdeal
import Idealize.ShloMosaic.Lib.ValueIdx
import Idealize.ShloMosaic.PureOps.Ideal.Laws

noncomputable section

namespace Cert.KernelIdeal.Tile

open Cert.KernelIdeal Cert.KernelIdeal.Gen
open Idealize.ShloMosaic Idealize.ShloMosaic.ValueIdx

/-! ## The operand indices of the product's entry (i, ·) at contraction position q, axis by axis -/

theorem lhs_tile_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs_tile_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem rhs_tile_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem rhs_tile_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- Entry (p, q) of the tile's product into the zero accumulator: the sum over the contracted coordinate. -/
theorem matmul_tile_apply {φ₁ φ₂ : FTy} (l : FVec Ideal S1000x128 φ₁) (r : FVec Ideal S128x128 φ₂) (p : Fin 1000) (q : Fin 128) :
    matmul dot_S1000x128_S128x128_S1000x128_1_0_0_1_n_n none l r (constant S1000x128 .f32 0x00000000#32) (ix2 p q)
      = ∑ k : Fin 128, l (ix2 p k) * r (ix2 k q) := by
  simp only [matmul]
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q) ((contrEquiv1 dot_S1000x128_S128x128_S1000x128_1_0_0_1_n_n 128 rfl rfl).symm k) = ix2 p k := funext fun a => Fin.ext (by
    match a with
    | ⟨0, _⟩ => exact lhs_tile_0 _ _
    | ⟨1, _⟩ => exact (lhs_tile_1 _ _).trans hk)
  have er : dot_S1000x128_S128x128_S1000x128_1_0_0_1_n_n.rhsIdx (ix2 p q) ((contrEquiv1 dot_S1000x128_S128x128_S1000x128_1_0_0_1_n_n 128 rfl rfl).symm k) = ix2 k q := funext fun a => Fin.ext (by
    match a with
    | ⟨0, _⟩ => exact (rhs_tile_0 _ _).trans hk
    | ⟨1, _⟩ => exact rhs_tile_1 _ _)
  rw [el, er]

end Cert.KernelIdeal.Tile

end
-- ==== Proof.UpdateRegion.lean ====
/-
  The update region, as one array.

  Region 1 walks the 100,000 nodes in 100 tiles of 1,000 rows. At point t the two node windows hold rows
  1000·t … 1000·t + 999 of the features and of the aggregate; the two weight matrices and the two bias vectors are
  staged whole. The body computes, entry by entry of its tile, `mlpRow` of the tile's own row: the casts to the
  narrow format are the identity on exact values, each product into a zero accumulator is the plain sum over the
  contracted coordinate, the bias is one row repeated down the tile. A tile row is an array row, so what point t writes
  back is tile t of `updOf` of the arrays; the 100 tiles cover the output, hence after the region the output array IS
  `updOf` of the contents the region was entered with.
-/
import proofs.«118374_j74500502716622_1_alg».proof.Proof.Gen.KernelIdeal.Frame
import proofs.«118374_j74500502716622_1_alg».proof.Proof.RowMlp
import proofs.«118374_j74500502716622_1_alg».proof.Proof.MatmulTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Update

open Cert.KernelIdeal Cert.KernelIdeal.Gen Cert.KernelIdeal.Tile Cert.RowMlp
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-! ## The body's stored value at an entry of the tile -/

/-- Entry (p, q) of what the body stores is `mlpRow` of row p of the two node tiles. -/
theorem payload_apply (v0 v1 : Vec Ideal S1000x128 .f32) (v5 : Vec Ideal S128x128 .f32) (v8 : Vec Ideal S128 .f32)
    (v15 : Vec Ideal S128x128 .f32) (v18 : Vec Ideal S128 .f32) (p : Fin 1000) (q : Fin 128) :
    k1_pay1 (F := Ideal) v0 v1 v5 v8 v15 v18 (ix2 p q)
      = mlpRow (fun l => v0 (ix2 p l)) (fun l => v1 (ix2 p l)) (fun l k => v5 (ix2 l k)) (fun k => v8 (ix1 k))
          (fun k j => v15 (ix2 k j)) (fun j => v18 (ix1 j)) q := by
  unfold k1_pay1
  rw [shapeCast_self]
  unfold mlpRow layer1
  simp only [addf_apply, maximumf_apply, truncf_apply, broadcast_apply, matmul_tile_apply, broadcastTo_1b_ab_apply,
    shapeCast_a_1a_apply, Ideal.ofBits_def, Ideal.ofBits_zero_f32]

/-- The same over a tile and arrays related row by row: if row `j 0` of the two node tiles is row `i 0` of the two node
    arrays, the staged parameters are the parameter arrays, and `j` and `i` have the same column, the stored value at
    `j` is the updated node array at `i`. -/
theorem tile_entry (X A : FVec Ideal S100000x128 .f32) (W1 : FVec Ideal S128x128 .f32) (B1 : FVec Ideal S128 .f32)
    (W2 : FVec Ideal S128x128 .f32) (B2 : FVec Ideal S128 .f32)
    (v0 v1 : Vec Ideal S1000x128 .f32) (v5 : Vec Ideal S128x128 .f32) (v8 : Vec Ideal S128 .f32)
    (v15 : Vec Ideal S128x128 .f32) (v18 : Vec Ideal S128 .f32) (j : S1000x128.Idx) (i : S100000x128.Idx)
    (hx : ∀ l : Fin 128, v0 (ix2 (j 0) l) = X (ix2 (i 0) l)) (ha : ∀ l : Fin 128, v1 (ix2 (j 0) l) = A (ix2 (i 0) l))
    (hw1 : ∀ l k : Fin 128, v5 (ix2 l k) = W1 (ix2 l k)) (hb1 : ∀ k : Fin 128, v8 (ix1 k) = B1 (ix1 k))
    (hw2 : ∀ k q : Fin 128, v15 (ix2 k q) = W2 (ix2 k q)) (hb2 : ∀ q : Fin 128, v18 (ix1 q) = B2 (ix1 q))
    (hc : (j 1).val = (i 1).val) :
    k1_pay1 (F := Ideal) v0 v1 v5 v8 v15 v18 j = updOf X A W1 B1 W2 B2 i := by
  have hq : (j 1 : Fin 128) = (i 1 : Fin 128) := Fin.ext hc
  refine (congrArg (k1_pay1 (F := Ideal) v0 v1 v5 v8 v15 v18) (eq_ix2 j)).trans ?_
  refine (payload_apply v0 v1 v5 v8 v15 v18 (j 0) (j 1)).trans ?_
  unfold updOf
  simp only [hx, ha, hw1, hb1, hw2, hb2, hq]

/-! ## Region 1 at the contents it is entered with -/

-- the buffer contents when the region is entered
variable (V : (c : Dev nD) → (b : Ref sig .tc) → Buf (Elt Ideal) ((c : Thread nD τ).loc b))

/-- The node features, the aggregate and the four parameter arrays, as region 1 finds them. -/
abbrev xs (c : Dev nD) : FVec Ideal S100000x128 .f32 := V c main_arg0
abbrev agg (c : Dev nD) : FVec Ideal S100000x128 .f32 := V c main_v14
abbrev w1 (c : Dev nD) : FVec Ideal S128x128 .f32 := V c main_arg3
abbrev b1 (c : Dev nD) : FVec Ideal S128 .f32 := V c main_arg4
abbrev w2 (c : Dev nD) : FVec Ideal S128x128 .f32 := V c main_arg5
abbrev b2 (c : Dev nD) : FVec Ideal S128 .f32 := V c main_arg6

/-- The windows' block indices at point t: the node windows and the output at block row t, the parameters at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- What point t writes back is tile t of the updated node array of the entry contents. -/
theorem flushed_eq (c : Dev nD) (t : Fin cfg1.N) :
    (dat1 V c).flushed 6 t = ((cfg1.win 6).blk t).view.read (Elt Ideal)
      (updOf (xs V c) (agg V c) (w1 V c) (b1 V c) (w2 V c) (b2 V c)) := by
  show (cfg1.win 6).cut (grid1.coords t) ((dat1 V c).after 6 t) = _
  rw [after1_6]
  unfold out1_6
  rw [View.canon_unit_zero hz2]
  simp only [View.ld_unit_zero (S := S1000x128) hz2, View.ld_unit_zero (S := S128x128) hz2, View.ld_unit_zero (S := S128) hz1]
  obtain ⟨e0, e1, e2, e3, e4, e5, e6, e7, e8, e9, e10, e11⟩ := idx_facts t
  funext j
  show k1_pay1 (F := Ideal) (iblk1 V c 0 t) (iblk1 V c 1 t) (iblk1 V c 2 t) (iblk1 V c 3 t) (iblk1 V c 4 t) (iblk1 V c 5 t) j
    = updOf (xs V c) (agg V c) (w1 V c) (b1 V c) (w2 V c) (b2 V c) (((cfg1.win 6).blk t).view.emb j)
  refine tile_entry (xs V c) (agg V c) (w1 V c) (b1 V c) (w2 V c) (b2 V c) (iblk1 V c 0 t) (iblk1 V c 1 t) (iblk1 V c 2 t)
    (iblk1 V c 3 t) (iblk1 V c 4 t) (iblk1 V c 5 t) j (((cfg1.win 6).blk t).view.emb j) ?_ ?_ ?_ ?_ ?_ ?_ ?_
  · intro l
    show xs V c (((cfg1.win 0).blk t).view.emb (ix2 (j 0) l)) = xs V c (ix2 ((((cfg1.win 6).blk t).view.emb j) 0) l)
    refine congrArg (xs V c) (funext fun a => Fin.ext ?_)
    match a with
    | ⟨0, _⟩ => show win1_0.index t (0 : Fin 2) * 1000 + 1 * (j 0).val = win1_6.index t (0 : Fin 2) * 1000 + 1 * (j 0).val; omega
    | ⟨1, _⟩ => show win1_0.index t (1 : Fin 2) * 128 + 1 * l.val = l.val; omega
  · intro l
    show agg V c (((cfg1.win 1).blk t).view.emb (ix2 (j 0) l)) = agg V c (ix2 ((((cfg1.win 6).blk t).view.emb j) 0) l)
    refine congrArg (agg V c) (funext fun a => Fin.ext ?_)
    match a with
    | ⟨0, _⟩ => show win1_1.index t (0 : Fin 2) * 1000 + 1 * (j 0).val = win1_6.index t (0 : Fin 2) * 1000 + 1 * (j 0).val; omega
    | ⟨1, _⟩ => show win1_1.index t (1 : Fin 2) * 128 + 1 * l.val = l.val; omega
  · intro l k
    show w1 V c (((cfg1.win 2).blk t).view.emb (ix2 l k)) = w1 V c (ix2 l k)
    refine congrArg (w1 V c) (funext fun a => Fin.ext ?_)
    match a with
    | ⟨0, _⟩ => show win1_2.index t (0 : Fin 2) * 128 + 1 * l.val = l.val; omega
    | ⟨1, _⟩ => show win1_2.index t (1 : Fin 2) * 128 + 1 * k.val = k.val; omega
  · intro k
    show b1 V c (((cfg1.win 3).blk t).view.emb (ix1 k)) = b1 V c (ix1 k)
    refine congrArg (b1 V c) (funext fun a => Fin.ext ?_)
    match a with
    | ⟨0, _⟩ => show win1_3.index t (0 : Fin 1) * 128 + 1 * k.val = k.val; omega
  · intro k q
    show w2 V c (((cfg1.win 4).blk t).view.emb (ix2 k q)) = w2 V c (ix2 k q)
    refine congrArg (w2 V c) (funext fun a => Fin.ext ?_)
    match a with
    | ⟨0, _⟩ => show win1_4.index t (0 : Fin 2) * 128 + 1 * k.val = k.val; omega
    | ⟨1, _⟩ => show win1_4.index t (1 : Fin 2) * 128 + 1 * q.val = q.val; omega
  · intro q
    show b2 V c (((cfg1.win 5).blk t).view.emb (ix1 q)) = b2 V c (ix1 q)
    refine congrArg (b2 V c) (funext fun a => Fin.ext ?_)
    match a with
    | ⟨0, _⟩ => show win1_5.index t (0 : Fin 1) * 128 + 1 * q.val = q.val; omega
  · show (j 1).val = win1_6.index t (1 : Fin 2) * 128 + 1 * (j 1).val; omega

/-- An index of the node array is in point t's tile iff each coordinate is in the tile's range on its axis. -/
theorem mem_blk (t : Fin cfg1.N) (i : S100000x128.Idx) :
    i ∈ ((cfg1.win 6).blk t).view.set ↔ ∀ a : Fin 2, win1_6.index t a * S1000x128.size a ≤ (i a).val
      ∧ (i a).val < win1_6.index t a * S1000x128.size a + S1000x128.size a := by
  show i ∈ ((View.whole main_v15).slice (win1_6.rect t)).set ↔ _
  rw [View.set_slice_whole, Rect.mem_set_unit]
  exact Iff.rfl

/-- Every node row lies in some point's tile: row r in tile r / 1000. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : (i 0).val / 1000 < cfg1.N := by rw [show cfg1.N = 100 from N_1]; omega
  refine ⟨⟨(i 0).val / 1000, hN⟩, flush1_6 _, ?_⟩
  rw [mem_blk]
  obtain ⟨-, -, -, -, -, -, -, -, -, -, e10, e11⟩ := idx_facts ⟨(i 0).val / 1000, hN⟩
  intro a
  match a with
  | ⟨0, _⟩ =>
    show win1_6.index ⟨(i 0).val / 1000, hN⟩ (0 : Fin 2) * 1000 ≤ (i 0).val
      ∧ (i 0).val < win1_6.index ⟨(i 0).val / 1000, hN⟩ (0 : Fin 2) * 1000 + 1000
    rw [e10]; show (i 0).val / 1000 * 1000 ≤ (i 0).val ∧ (i 0).val < (i 0).val / 1000 * 1000 + 1000; omega
  | ⟨1, _⟩ =>
    show win1_6.index ⟨(i 0).val / 1000, hN⟩ (1 : Fin 2) * 128 ≤ (i 1).val
      ∧ (i 1).val < win1_6.index ⟨(i 0).val / 1000, hN⟩ (1 : Fin 2) * 128 + 128
    rw [e11]; omega

/-- After region 1 its output array is the updated node array of the entry contents. -/
theorem upd_array (c : Dev nD) :
    (dat1 V c).arrAt 6 cfg1.N = updOf (xs V c) (agg V c) (w1 V c) (b1 V c) (w2 V c) (b2 V c) :=
  (dat1 V c).arrAt_eq_of_cover 6 (updOf (xs V c) (agg V c) (w1 V c) (b1 V c) (w2 V c) (b2 V c))
    (fun t _ => flushed_eq V c t) cover

end Cert.KernelIdeal.Update

end
-- ==== Proof.KernelValue.lean ====
/-
  The kernel program's result, as the reference's own function of the arguments.

  The program is four segments: the host prepares the gather indices and gathers the source rows; region 0 forms the
  edge messages; the host scatter-adds them onto the nodes; region 1 updates the nodes. Reading the buffer contents at
  each boundary back to the launch memory:
    * the gathered rows and the scatter indices are the reference's gather and index stages of the same arguments
      (the same host operations, read off the fold; never opened);
    * region 0's output is `msgOf` of the gathered rows and the edge attributes, which is the reference's message stage;
    * so the aggregate region 1 finds is the reference's scatter-add stage of the same three arguments;
    * region 1's output is `updOf` of the node features, that aggregate and the four parameter arrays, all of which no
      segment writes.
  Hence the result array is `updOf x agg w1 b1 w2 b2` with `agg` the reference's own aggregate stage.
-/
import proofs.«118374_j74500502716622_1_alg».proof.Proof.KernelRun
import proofs.«118374_j74500502716622_1_alg».proof.Proof.MessageRegion
import proofs.«118374_j74500502716622_1_alg».proof.Proof.UpdateRegion
import proofs.«118374_j74500502716622_1_alg».proof.Proof.RefRows
import Idealize.ShloMosaic.Lib.StableHlo.Run

set_option maxRecDepth 16384

noncomputable section

namespace Cert.KernelIdeal.Outcome

open Cert.KernelIdeal Cert.KernelIdeal.Gen Cert.RowMlp
open Idealize.ShloMosaic Idealize.ShloMosaic.TcCoe Idealize.SL.Sem Idealize.ShloMosaic.StableHlo

variable (m : (ℓ : Loc nD τ sig) → Buf (Elt Ideal) ℓ) (ρ : Dev nD → PrngReg)

/-- The seven argument arrays at launch, at their literal types. -/
abbrev a0 (c : Dev nD) : FVec Ideal S100000x128 .f32 := m ((c : Thread nD τ).loc main_arg0)
abbrev a1 (c : Dev nD) : IVec S2x1600000 32 := m ((c : Thread nD τ).loc main_arg1)
abbrev a2 (c : Dev nD) : FVec Ideal S1600000x128 .f32 := m ((c : Thread nD τ).loc main_arg2)
abbrev a3 (c : Dev nD) : FVec Ideal S128x128 .f32 := m ((c : Thread nD τ).loc main_arg3)
abbrev a4 (c : Dev nD) : FVec Ideal S128 .f32 := m ((c : Thread nD τ).loc main_arg4)
abbrev a5 (c : Dev nD) : FVec Ideal S128x128 .f32 := m ((c : Thread nD τ).loc main_arg5)
abbrev a6 (c : Dev nD) : FVec Ideal S128 .f32 := m ((c : Thread nD τ).loc main_arg6)

/-! ## The two programs' dimension records are the same records -/

theorem gather_rec : gather_S100000x128_S1600000x1_S1600000x128_1_0_n_n_0_1_1128
    = Cert.ReferenceIdeal.gather_S100000x128_S1600000x1_S1600000x128_1_0_n_n_0_1_1128 := rfl
theorem scatter_rec : scatter_S100000x128_S1600000x1_S1600000x128_1_0_0_1
    = Cert.ReferenceIdeal.scatter_S100000x128_S1600000x1_S1600000x128_1_0_0_1 := rfl

/-! ## The host stretches, read off the fold -/

/-- Before region 0: the gathered rows are the reference's gather stage of the launch arguments. -/
theorem entry0_gathered (c : Dev nD) :
    W1 m ρ c (Proc.devRef .tc main_v10) = Cert.ReferenceIdeal.Read.val_main_v10 (F := Ideal) (a0 m c) (a1 m c) := by
  show StableHlo.after hostOps0 (W0 m ρ c) (Proc.devRef .tc main_v10) = _
  after_results
  rfl

/-- … the edge attributes are as launched, … -/
theorem entry0_attr (c : Dev nD) : W1 m ρ c (Proc.devRef .tc main_arg2) = a2 m c := by
  show StableHlo.after hostOps0 (W0 m ρ c) (Proc.devRef .tc main_arg2) = _
  after_results

/-- … and the target indices (the second row of the edge list) are the reference's. -/
theorem entry0_targets (c : Dev nD) :
    W1 m ρ c (Proc.devRef .tc main_v3) = Cert.ReferenceIdeal.Read.val_main_v3 (F := Ideal) (a1 m c) := by
  show StableHlo.after hostOps0 (W0 m ρ c) (Proc.devRef .tc main_v3) = _
  after_results
  rfl

/-- An argument the first stretch does not write is as launched before region 0. -/
theorem entry0_arg0 (c : Dev nD) : W1 m ρ c (Proc.devRef .tc main_arg0) = a0 m c := by
  show StableHlo.after hostOps0 (W0 m ρ c) (Proc.devRef .tc main_arg0) = _
  after_results
theorem entry0_arg3 (c : Dev nD) : W1 m ρ c (Proc.devRef .tc main_arg3) = a3 m c := by
  show StableHlo.after hostOps0 (W0 m ρ c) (Proc.devRef .tc main_arg3) = _
  after_results
theorem entry0_arg4 (c : Dev nD) : W1 m ρ c (Proc.devRef .tc main_arg4) = a4 m c := by
  show StableHlo.after hostOps0 (W0 m ρ c) (Proc.devRef .tc main_arg4) = _
  after_results
theorem entry0_arg5 (c : Dev nD) : W1 m ρ c (Proc.devRef .tc main_arg5) = a5 m c := by
  show StableHlo.after hostOps0 (W0 m ρ c) (Proc.devRef .tc main_arg5) = _
  after_results
theorem entry0_arg6 (c : Dev nD) : W1 m ρ c (Proc.devRef .tc main_arg6) = a6 m c := by
  show StableHlo.after hostOps0 (W0 m ρ c) (Proc.devRef .tc main_arg6) = _
  after_results

/-! ## After region 0 -/

/-- Region 0 leaves the reference's message stage in its output array. -/
theorem exit0_messages (c : Dev nD) :
    W2 m ρ c (Proc.devRef .tc main_v11)
      = Cert.ReferenceIdeal.Read.val_main_v12 (F := Ideal) (a0 m c) (a1 m c) (a2 m c) := by
  refine (W2_arr m ρ c 2).trans ((Message.msg_array (V1 m ρ) c).trans ?_)
  rw [Cert.ReferenceIdeal.Rows.msg_eq]
  show msgOf (W1 m ρ c (Proc.devRef .tc main_v10)) (W1 m ρ c (Proc.devRef .tc main_arg2)) = _
  rw [entry0_gathered, entry0_attr]

/-- A buffer that is no array of region 0 is after it what it was before. -/
theorem exit0_targets (c : Dev nD) :
    W2 m ρ c (Proc.devRef .tc main_v3) = Cert.ReferenceIdeal.Read.val_main_v3 (F := Ideal) (a1 m c) :=
  (W2_of_ne m ρ c main_v3 (by decide)).trans (entry0_targets m ρ c)
theorem exit0_arg0 (c : Dev nD) : W2 m ρ c (Proc.devRef .tc main_arg0) = a0 m c :=
  (W2_of_ne m ρ c main_arg0 (by decide)).trans (entry0_arg0 m ρ c)
theorem exit0_arg3 (c : Dev nD) : W2 m ρ c (Proc.devRef .tc main_arg3) = a3 m c :=
  (W2_of_ne m ρ c main_arg3 (by decide)).trans (entry0_arg3 m ρ c)
theorem exit0_arg4 (c : Dev nD) : W2 m ρ c (Proc.devRef .tc main_arg4) = a4 m c :=
  (W2_of_ne m ρ c main_arg4 (by decide)).trans (entry0_arg4 m ρ c)
theorem exit0_arg5 (c : Dev nD) : W2 m ρ c (Proc.devRef .tc main_arg5) = a5 m c :=
  (W2_of_ne m ρ c main_arg5 (by decide)).trans (entry0_arg5 m ρ c)
theorem exit0_arg6 (c : Dev nD) : W2 m ρ c (Proc.devRef .tc main_arg6) = a6 m c :=
  (W2_of_ne m ρ c main_arg6 (by decide)).trans (entry0_arg6 m ρ c)

/-! ## Before region 1 -/

/-- The aggregate region 1 finds is the reference's scatter-add stage of the launch arguments. -/
theorem entry1_aggregate (c : Dev nD) :
    W3 m ρ c (Proc.devRef .tc main_v14)
      = Cert.ReferenceIdeal.Read.val_main_v15 (F := Ideal) (a0 m c) (a1 m c) (a2 m c) := by
  show StableHlo.after hostOps1 (W2 m ρ c) (Proc.devRef .tc main_v14) = _
  after_results
  rw [exit0_targets, exit0_messages, scatter_rec]
  rfl

theorem entry1_arg0 (c : Dev nD) : W3 m ρ c (Proc.devRef .tc main_arg0) = a0 m c := by
  show StableHlo.after hostOps1 (W2 m ρ c) (Proc.devRef .tc main_arg0) = _
  after_results
  exact exit0_arg0 m ρ c
theorem entry1_arg3 (c : Dev nD) : W3 m ρ c (Proc.devRef .tc main_arg3) = a3 m c := by
  show StableHlo.after hostOps1 (W2 m ρ c) (Proc.devRef .tc main_arg3) = _
  after_results
  exact exit0_arg3 m ρ c
theorem entry1_arg4 (c : Dev nD) : W3 m ρ c (Proc.devRef .tc main_arg4) = a4 m c := by
  show StableHlo.after hostOps1 (W2 m ρ c) (Proc.devRef .tc main_arg4) = _
  after_results
  exact exit0_arg4 m ρ c
theorem entry1_arg5 (c : Dev nD) : W3 m ρ c (Proc.devRef .tc main_arg5) = a5 m c := by
  show StableHlo.after hostOps1 (W2 m ρ c) (Proc.devRef .tc main_arg5) = _
  after_results
  exact exit0_arg5 m ρ c
theorem entry1_arg6 (c : Dev nD) : W3 m ρ c (Proc.devRef .tc main_arg6) = a6 m c := by
  show StableHlo.after hostOps1 (W2 m ρ c) (Proc.devRef .tc main_arg6) = _
  after_results
  exact exit0_arg6 m ρ c

/-! ## The result -/

/-- The result array after the run: the updated node array of the launch arguments, over the reference's own
    aggregate stage. -/
def result (c : Dev nD) : S100000x128.Idx → EReal :=
  updOf (a0 m c) (Cert.ReferenceIdeal.Read.val_main_v15 (F := Ideal) (a0 m c) (a1 m c) (a2 m c)) (a3 m c) (a4 m c)
    (a5 m c) (a6 m c)

theorem result_eq (c : Dev nD) : W4 m ρ c (Proc.devRef .tc main_v15) = result m c := by
  refine (W4_arr m ρ c 6).trans ((Update.upd_array (V3 m ρ) c).trans ?_)
  show updOf (W3 m ρ c (Proc.devRef .tc main_arg0)) (W3 m ρ c (Proc.devRef .tc main_v14))
      (W3 m ρ c (Proc.devRef .tc main_arg3)) (W3 m ρ c (Proc.devRef .tc main_arg4))
      (W3 m ρ c (Proc.devRef .tc main_arg5)) (W3 m ρ c (Proc.devRef .tc main_arg6)) = _
  rw [entry1_arg0, entry1_aggregate, entry1_arg3, entry1_arg4, entry1_arg5, entry1_arg6]
  rfl

end Cert.KernelIdeal.Outcome

end
-- ==== Proof.lean ====
/-
  A graph-convolution step (edge messages, sum aggregation, two-layer node update), tiled, against its plain form.

  Both programs compute, for node features x, an edge list (src, dst), edge attributes e and parameters w1 b1 w2 b2,
      msg  = max (x[src] + e) 0                     one row per edge
      agg  = scatter-add of msg onto the rows dst    one row per node
      out  = max ((x + agg) · w1 + b1) 0 · w2 + b2   one row per node.
  The gather x[src] and the scatter-add are the SAME host operations in both programs (same index arithmetic, same
  dimension records), so they are carried as the reference's own stage functions and never opened.  What differs:
    * the edge-wise message is computed in 250 tiles of 6,400 edges — an entrywise map, so the tiles assemble to the
      entrywise map of the whole arrays;
    * the node update is computed in 100 tiles of 1,000 nodes, its matrix factors first cast to a narrower float format
      and multiplied into a zero accumulator — on the extended reals a cast is the identity and the product is the plain
      sum over the contracted coordinate, and a node's output row depends only on that node's own rows of x and agg, so
      the tiles assemble to the row-wise function `RowMlp.updOf` of the whole arrays, which is also what the reference's
      two dense layers are, entry by entry.
  Only commutative-monoid facts about sums on the extended reals are used: the equality needs no finiteness, and the
  precondition is never opened.
-/
import proofs.«118374_j74500502716622_1_alg».proof.Defs
import proofs.«118374_j74500502716622_1_alg».proof.Proof.Gen.Kernel
import proofs.«118374_j74500502716622_1_alg».proof.Proof.Gen.Kernel.Skeleton
import proofs.«118374_j74500502716622_1_alg».proof.Proof.Gen.Kernel.Launch
import proofs.«118374_j74500502716622_1_alg».proof.Proof.Gen.Kernel.Points
import proofs.«118374_j74500502716622_1_alg».proof.Proof.Gen.Kernel.Frame
import proofs.«118374_j74500502716622_1_alg».proof.Proof.Gen.KernelIdeal
import proofs.«118374_j74500502716622_1_alg».proof.Proof.Gen.KernelIdeal.Skeleton
import proofs.«118374_j74500502716622_1_alg».proof.Proof.Gen.KernelIdeal.Launch
import proofs.«118374_j74500502716622_1_alg».proof.Proof.Gen.KernelIdeal.Points
import proofs.«118374_j74500502716622_1_alg».proof.Proof.Gen.KernelIdeal.Frame
import proofs.«118374_j74500502716622_1_alg».proof.Proof.Gen.ReferenceIdeal
import proofs.«118374_j74500502716622_1_alg».proof.Proof.Gen.ReferenceIdeal.Run
import proofs.«118374_j74500502716622_1_alg».proof.Proof.Gen.ReferenceIdeal.Read
import proofs.«118374_j74500502716622_1_alg».proof.Proof.Gen.Pre_finite_inputs
import proofs.«118374_j74500502716622_1_alg».proof.Proof.RefRows
import proofs.«118374_j74500502716622_1_alg».proof.Proof.KernelRun
import proofs.«118374_j74500502716622_1_alg».proof.Proof.KernelValue
import Idealize.ShloMosaic.Adequacy
import Idealize.ShloMosaic.Init

noncomputable section

namespace Cert.Proof

open Idealize.ShloMosaic Idealize.SL.Sem

/-- The tiled program at the word level runs and keeps its arguments. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The plain program is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten between the word-level program and its exact reading. -/
theorem preserves : Cert.preserves_Kernel_KernelIdeal := trivial

/-- From memories agreeing on the arguments both programs end with the updated node array `updOf x agg w1 b1 w2 b2`,
    `agg` the scatter-add stage of the arguments: the tiled program by its two regions read as whole arrays, the plain
    one by its two dense layers read entry by entry. -/
theorem algebraic : Cert.algebraic_KernelIdeal_ReferenceIdeal := by
  intro m ρ m' ρ' _ hagree
  refine ⟨fun c => Cert.KernelIdeal.Outcome.result m c, ?_, ?_⟩
  · exact (θ_run Cert.KernelIdeal.defs _ _).mono
      (fun r h c => ⟨(h c).1.trans (Cert.KernelIdeal.Outcome.result_eq m ρ c), (h c).2⟩)
      (Cert.KernelIdeal.Outcome.run_out m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, Cert.ReferenceIdeal.Rows.out_eq, (hagree c).1, (hagree c).2.1,
      (hagree c).2.2.1, (hagree c).2.2.2.1, (hagree c).2.2.2.2.1, (hagree c).2.2.2.2.2.1, (hagree c).2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
